-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S4096x256 : Shape := ⟨2, ![4096, 256]⟩
abbrev S512x4096 : Shape := ⟨2, ![512, 4096]⟩
abbrev S512x256 : Shape := ⟨2, ![512, 256]⟩
abbrev S1x4096 : Shape := ⟨2, ![1, 4096]⟩
abbrev S1024x256 : Shape := ⟨2, ![1024, 256]⟩
abbrev S1x1024 : Shape := ⟨2, ![1, 1024]⟩
abbrev S1024x1024 : Shape := ⟨2, ![1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x256, .bf16⟩
  | .hbm, ⟨4, _⟩ => ⟨S4096x256, .bf16⟩
  | .hbm, ⟨5, _⟩ => ⟨S1x4096, .f32⟩
  | .hbm, ⟨6, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x256, .bf16⟩
  | .local _ .vmem, ⟨3, _⟩ => ⟨S512x256, .bf16⟩
  | .local _ .vmem, ⟨4, _⟩ => ⟨S512x4096, .f32⟩
  | .local _ .vmem, ⟨5, _⟩ => ⟨S512x4096, .f32⟩
  | .local _ .vmem, ⟨6, _⟩ => ⟨S512x256, .bf16⟩
  | .local _ .vmem, ⟨7, _⟩ => ⟨S512x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S512x4096_S512x256_0_0 : ∀ a, (![0, 0] : Fin 2 → Nat) a + S512x256.size a ≤ S512x4096.size a
  h_S512x256 : 0 < S512x256.numel
  inb_S512x4096_S512x256_0_256 : ∀ a, (![0, 256] : Fin 2 → Nat) a + S512x256.size a ≤ S512x4096.size a
  inb_S512x4096_S512x256_0_512 : ∀ a, (![0, 512] : Fin 2 → Nat) a + S512x256.size a ≤ S512x4096.size a
  inb_S512x4096_S512x256_0_768 : ∀ a, (![0, 768] : Fin 2 → Nat) a + S512x256.size a ≤ S512x4096.size a
  inb_S512x4096_S512x256_0_1024 : ∀ a, (![0, 1024] : Fin 2 → Nat) a + S512x256.size a ≤ S512x4096.size a
  inb_S512x4096_S512x256_0_1280 : ∀ a, (![0, 1280] : Fin 2 → Nat) a + S512x256.size a ≤ S512x4096.size a
  inb_S512x4096_S512x256_0_1536 : ∀ a, (![0, 1536] : Fin 2 → Nat) a + S512x256.size a ≤ S512x4096.size a
  inb_S512x4096_S512x256_0_1792 : ∀ a, (![0, 1792] : Fin 2 → Nat) a + S512x256.size a ≤ S512x4096.size a
  inb_S512x4096_S512x256_0_2048 : ∀ a, (![0, 2048] : Fin 2 → Nat) a + S512x256.size a ≤ S512x4096.size a
  inb_S512x4096_S512x256_0_2304 : ∀ a, (![0, 2304] : Fin 2 → Nat) a + S512x256.size a ≤ S512x4096.size a
  inb_S512x4096_S512x256_0_2560 : ∀ a, (![0, 2560] : Fin 2 → Nat) a + S512x256.size a ≤ S512x4096.size a
  inb_S512x4096_S512x256_0_2816 : ∀ a, (![0, 2816] : Fin 2 → Nat) a + S512x256.size a ≤ S512x4096.size a
  inb_S512x4096_S512x256_0_3072 : ∀ a, (![0, 3072] : Fin 2 → Nat) a + S512x256.size a ≤ S512x4096.size a
  inb_S512x4096_S512x256_0_3328 : ∀ a, (![0, 3328] : Fin 2 → Nat) a + S512x256.size a ≤ S512x4096.size a
  inb_S512x4096_S512x256_0_3584 : ∀ a, (![0, 3584] : Fin 2 → Nat) a + S512x256.size a ≤ S512x4096.size a
  inb_S512x4096_S512x256_0_3840 : ∀ a, (![0, 3840] : Fin 2 → Nat) a + S512x256.size a ≤ S512x4096.size a
  bitsLt_bf16_f32 : FTy.bits .bf16 < FTy.bits .f32
  inb_S512x256_S512x256_0_0 : ∀ a, (![0, 0] : Fin 2 → Nat) a + S512x256.size a ≤ S512x256.size a
  packedbf16_S512x256_S512x256_0_0 : (Rect.unit (s := S512x256) ![0, 0] S512x256.size inb_S512x256_S512x256_0_0).PackedRows (EltTy.packing .bf16)
  shapeCasts_S4096_S1x4096 : S4096.ShapeCasts S1x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .bf16 = 32 ∨ (Rect.block (s := S4096x256) S512x256.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .bf16 = 32 ∨ (Rect.block (s := S4096x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .bf16 = 32 ∨ (Rect.block (s := S4096x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x4096.size a
  hwx2_3 : ∀ i : grid2.Coords, EltTy.bits .f32 = 32 ∨ (Rect.block (s := S4096x4096) S1024x1024.size (cc2_transform_3 i) (hinb2_3 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x4096 : Shape := ⟨2, ![4096, 4096]⟩
abbrev S4096 : Shape := ⟨1, ![4096]⟩
abbrev S0 : Shape := ⟨1, ![0]⟩
abbrev S4096x16x256 : Shape := ⟨3, ![4096, 16, 256]⟩
abbrev S_ : Shape := ⟨0, ![]⟩
abbrev S4096x256 : Shape := ⟨2, ![4096, 256]⟩
abbrev S16x256x4096 : Shape := ⟨3, ![16, 256, 4096]⟩
abbrev S256x4096 : Shape := ⟨2, ![256, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S0, .i32⟩
  | .hbm, ⟨4, _⟩ => ⟨S4096x4096, .f32⟩
  | .hbm, ⟨5, _⟩ => ⟨S4096x16x256, .f32⟩
  | .hbm, ⟨6, _⟩ => ⟨S_, .f32⟩
  | .hbm, ⟨7, _⟩ => ⟨S4096x256, .f32⟩
  | .hbm, ⟨8, _⟩ => ⟨S16x256x4096, .f32⟩
  | .hbm, ⟨9, _⟩ => ⟨S_, .f32⟩
  | .hbm, ⟨10, _⟩ => ⟨S256x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  hz_S0 : S0.numel = 0
  transposes_S4096x4096_S4096x4096_1_0 : S4096x4096.Transposes [1, 0] S4096x4096
  shapeCasts_S4096x4096_S4096x16x256 : S4096x4096.ShapeCasts S4096x16x256
  reducesTo_S4096x16x256_S4096x256_d1 : S4096x16x256.ReducesTo [1] S4096x256
  h_S_ : 0 < S_.numel
  shapeCasts_S4096x4096_S16x256x4096 : S4096x4096.ShapeCasts S16x256x4096
  reducesTo_S16x256x4096_S256x4096_d0 : S16x256x4096.ReducesTo [0] S256x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x256_S256x4096_S4096x4096_1_0_0_1_n_n_wf : DotDims.WF S4096x256 S256x4096 S4096x4096 [1] [0] [0] [1] [] []
  scatter_S4096x4096_S0_S4096x4096_01_n_n_0_wf : ScatterDims.WF S4096x4096 S0 S4096x4096 [0, 1] [] [] 0

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf

class Facts : Prop extends Facts₀ where

variable [Facts]
-- ==== Proof.Spec.lean ====
/-
  The specification both programs are compared against, as functions of the three argument arrays at the extended
  reals, index by index, over the literal shapes.

  With `x` and `w` of shape 4096 × 4096 and `bias` of length 4096, write `R x` for the 4096 × 256 array whose entry
  `(p, r)` is the sum over the sixteen blocks `b` of `x (p, 256·b + r)` (`foldCols`). The result is
  `out (p, o) = (∑ k < 256, R x (p, k) · R w (o, k)) + bias o` (`mmBias` of `R x`, `R w` and the bias laid out as one row).
  Only the ORDER of the sixteen-term sum differs between the two programs (one adds the blocks left to right, the
  other folds them from a zero), and addition on the extended reals is associative with `0` neutral, so no finiteness
  is used anywhere.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- 4096 × 4096. -/
abbrev Sq : Shape := ⟨2, ![4096, 4096]⟩
/-- 4096 × 256: a square array with its sixteen column blocks summed. -/
abbrev Red : Shape := ⟨2, ![4096, 256]⟩
/-- 1 × 4096: the bias as one row. -/
abbrev Row : Shape := ⟨2, ![1, 4096]⟩
/-- 4096: the bias. -/
abbrev Len : Shape := ⟨1, ![4096]⟩

/-- Row `p`, column `256·b + r`: offset `r` inside column block `b`. -/
def colIdx (p : Fin 4096) (r : Fin 256) (b : Fin 16) : Sq.Idx :=
  ix2 p ⟨256 * b.val + r.val, by have := b.isLt; have := r.isLt; omega⟩

theorem colIdx_val0 (p : Fin 4096) (r : Fin 256) (b : Fin 16) : (colIdx p r b 0).val = p.val := rfl
theorem colIdx_val1 (p : Fin 4096) (r : Fin 256) (b : Fin 16) : (colIdx p r b 1).val = 256 * b.val + r.val := rfl

/-- The sixteen column blocks of row `p` at offset `r`, added left to right. -/
def rowSum (x : Sq.Idx → EReal) (p : Fin 4096) (r : Fin 256) : EReal :=
  x (colIdx p r 0) + x (colIdx p r 1) + x (colIdx p r 2) + x (colIdx p r 3) + x (colIdx p r 4) + x (colIdx p r 5) + x (colIdx p r 6) + x (colIdx p r 7) + x (colIdx p r 8) + x (colIdx p r 9) + x (colIdx p r 10) + x (colIdx p r 11) + x (colIdx p r 12) + x (colIdx p r 13) + x (colIdx p r 14) + x (colIdx p r 15)

/-- `R x`: every row's sixteen column blocks summed. -/
def foldCols (x : Sq.Idx → EReal) : Red.Idx → EReal := fun i =>
  rowSum x ⟨(i 0).val, idx2_lt0 i⟩ ⟨(i 1).val, idx2_lt1 i⟩

theorem foldCols_ix2 (x : Sq.Idx → EReal) (p : Fin 4096) (r : Fin 256) : foldCols x (ix2 p r) = rowSum x p r := rfl

/-- `a · bᵀ + bias`: entry `(p, o)` is the sum over `k` of `a (p, k) · b (o, k)`, plus `bias (0, o)`. -/
def mmBias (a b : Red.Idx → EReal) (bias : Row.Idx → EReal) : Sq.Idx → EReal := fun i =>
  (∑ k : Fin 256, a (ix2 ⟨(i 0).val, idx2_lt0 i⟩ k) * b (ix2 ⟨(i 1).val, idx2_lt1 i⟩ k))
    + bias (ix2 0 ⟨(i 1).val, idx2_lt1 i⟩)

/-- The bias laid out as one row. -/
def asRow (bias : Len.Idx → EReal) : Row.Idx → EReal := fun j => bias (ix1 ⟨(j 1).val, idx2_lt1 j⟩)

/-- The result as one function of the three argument arrays. -/
def G (x w : Sq.Idx → EReal) (bias : Len.Idx → EReal) : Sq.Idx → EReal :=
  mmBias (foldCols x) (foldCols w) (asRow bias)

/-- A sum over sixteen indices, written out left to right. -/
theorem sum16 (f : Fin 16 → EReal) : ∑ b, f b = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- Folding the sixteen blocks from a zero is adding them left to right. -/
theorem zero_add_sum16 (f : Fin 16 → EReal) : (0 : EReal) + ∑ b, f b = f 0 + f 1 + f 2 + f 3 + f 4 + f 5 + f 6 + f 7 + f 8 + f 9 + f 10 + f 11 + f 12 + f 13 + f 14 + f 15 := by
  rw [zero_add, sum16]

end Cert.Spec

end
-- ==== Proof.LibScatterRead.lean ====
/-
  A host scatter that replaces (its body returns the update), read at an index.

  The scatter is a left fold, over the update indices in row-major order, of point updates `r ↦ r[place j := upd j]`.
  When every update index lands inside the operand and no two land on the same place, the fold leaves at the place of
  `j` exactly `upd j`: the one step that names the place writes it, and no later step names it again.
-/
import Idealize.ShloMosaic.PureOps.ShapeOps
import Idealize.ShloMosaic.PureOps.Dims
import Mathlib.Data.List.Nodup
import Mathlib.Data.List.FinRange

namespace Cert.LibScatterRead

open Idealize.ShloMosaic

/-- A left fold of point updates `r ↦ r[k n := v n]` over a list leaves a place `c` that no `k n` names as it was at
    the start. -/
theorem foldl_update_of_forall_ne {ι κ α : Type} [DecidableEq κ] (k : ι → κ) (v : ι → α) (l : List ι)
    (x : κ → α) (c : κ) (hc : ∀ n ∈ l, k n ≠ c) :
    (l.foldl (fun r n => fun i' => if i' = k n then v n else r i') x) c = x c := by
  induction l generalizing x with
  | nil => rfl
  | cons m l ih =>
    rw [List.foldl_cons, ih _ (fun n hn => hc n (List.mem_cons_of_mem _ hn))]
    exact if_neg fun h => hc m List.mem_cons_self h.symm

/-- A left fold of point updates `r ↦ r[k n := v n]` over a list without repeats, `k` injective: at the place `k n` of
    a member `n` the result is `v n`, since the one update that names the place writes `v n` and every later one
    names another place. -/
theorem foldl_update_of_mem {ι κ α : Type} [DecidableEq κ] (k : ι → κ) (hk : Function.Injective k) (v : ι → α)
    (l : List ι) (hl : l.Nodup) (x : κ → α) (n : ι) (hn : n ∈ l) :
    (l.foldl (fun r n => fun i' => if i' = k n then v n else r i') x) (k n) = v n := by
  induction l generalizing x with
  | nil => exact absurd hn List.not_mem_nil
  | cons m l ih =>
    rw [List.foldl_cons]
    rw [List.nodup_cons] at hl
    rcases List.mem_cons.1 hn with rfl | hn'
    · rw [foldl_update_of_forall_ne k v l _ (k n) fun n' hn' h => hl.1 (hk h ▸ hn')]
      exact if_pos rfl
    · exact ih hl.2 _ hn'

/-- A host scatter whose body returns the update (`.at[…].set`), read at an index: when every update index `j` lands
    inside the operand, at `g j`, and no two land on the same place, the result at `g j` is the update at `j`. -/
theorem scatter_replace_apply {α : Type} {s si u : Shape} {w : Nat} (d : ScatterDims s si u) (x : s.Idx → α)
    (idx : IVec si w) (upd : u.Idx → α) (g : u.Idx → s.Idx)
    (hres : ∀ j, d.resultIdx? j idx = some (g j)) (hinj : Function.Injective g) (j : u.Idx) :
    Host.scatter d (fun _ b => b) x idx upd (g j) = upd j := by
  have h := foldl_update_of_mem (fun n => g (u.rowMajor.symm n)) (hinj.comp u.rowMajor.symm.injective)
    (fun n => upd (u.rowMajor.symm n)) (List.finRange u.numel) (List.nodup_finRange _) x (u.rowMajor j)
    (List.mem_finRange _)
  simp only [Equiv.symm_apply_apply] at h
  unfold Host.scatter
  refine Eq.trans (congrFun (congrArg (fun f => List.foldl f x (List.finRange u.numel)) ?_) (g j)) h
  funext r n
  rw [hres]

end Cert.LibScatterRead
-- ==== Proof.RefValue.lean ====
/-
  The reference, stage by stage, is the specification.

  Its two reduces fold the axis of length sixteen from a zero: at the extended reals `0 + ∑ b, x (p, 256·b + k)`, the
  sixteen-term sum in the other order from the kernel's (`Cert.Spec.zero_add_sum16`). Its product is the sum over `k` of
  the two folded arrays' entries, its scatter has no scatter axis and a window that is the whole array, so it replaces
  every zero by the product's entry, and the bias is added along every row.
-/
import proofs.«156795_j4844723110442_1_alg».proof.Defs
import proofs.«156795_j4844723110442_1_alg».proof.Proof.RefRun
import proofs.«156795_j4844723110442_1_alg».proof.Proof.RefRead
import proofs.«156795_j4844723110442_1_alg».proof.Proof.Spec
import proofs.«156795_j4844723110442_1_alg».proof.Proof.LibScatterRead

noncomputable section

namespace Cert.ReferenceIdeal.RefValue

open Idealize.ShloMosaic Idealize.ShloMosaic.TcCoe Idealize.ShloMosaic.ValueIdx
open Cert.ReferenceIdeal Cert.ReferenceIdeal.ReadP

/-- With no scatter axis and both axes window axes, the window starts at `0` on every axis. -/
theorem scatter_start {w : Nat} (idx : IVec S0 w) (j : S4096x4096.Idx) (a : Fin S4096x4096.rank) :
    scatter_S4096x4096_S0_S4096x4096_01_n_n_0.start j idx a = 0 := by
  unfold ScatterDims.start
  exact dif_neg List.not_mem_nil

/-- On the first axis, a kept axis in first position, the window coordinate is the update index's first. -/
theorem scatter_window_0 (j : S4096x4096.Idx) :
    scatter_S4096x4096_S0_S4096x4096_01_n_n_0.window j 0 = (j 0).val := by
  unfold ScatterDims.window
  rw [dif_pos (show (0 : Fin S4096x4096.rank) ∈ scatter_S4096x4096_S0_S4096x4096_01_n_n_0.sKept by decide)]
  rfl

/-- On the second axis, a kept axis in second position, the window coordinate is the update index's second. -/
theorem scatter_window_1 (j : S4096x4096.Idx) :
    scatter_S4096x4096_S0_S4096x4096_01_n_n_0.window j 1 = (j 1).val := by
  unfold ScatterDims.window
  rw [dif_pos (show (1 : Fin S4096x4096.rank) ∈ scatter_S4096x4096_S0_S4096x4096_01_n_n_0.sKept by decide)]
  rfl

/-- With both axes window axes and none inserted, the window coordinate on axis `a` is the update index's own. -/
theorem scatter_window (j : S4096x4096.Idx) (a : Fin S4096x4096.rank) :
    scatter_S4096x4096_S0_S4096x4096_01_n_n_0.window j a = (j a).val := by
  match a with
  | ⟨0, _⟩ => exact scatter_window_0 j
  | ⟨1, _⟩ => exact scatter_window_1 j

/-- Every update index of the whole-array scatter lands inside the operand, on itself. -/
theorem scatter_resultIdx {w : Nat} (idx : IVec S0 w) (j : S4096x4096.Idx) :
    scatter_S4096x4096_S0_S4096x4096_01_n_n_0.resultIdx? j idx = some j := by
  unfold ScatterDims.resultIdx?
  rw [dif_pos (fun a => by
    rw [scatter_start idx j a, scatter_window j a]
    have := (j a).isLt
    constructor <;> omega)]
  refine congrArg some (funext fun a => Fin.ext ?_)
  show (scatter_S4096x4096_S0_S4096x4096_01_n_n_0.start j idx a
    + scatter_S4096x4096_S0_S4096x4096_01_n_n_0.window j a).toNat = (j a).val
  rw [scatter_start idx j a, scatter_window j a]
  omega

/-- The scatter writes the whole product over the zeros: it is the product. -/
theorem val_main_v7_apply (x0 x1 : (⟨S4096x4096, .f32⟩ : BufTy).Contents (Elt Ideal)) (i : S4096x4096.Idx) :
    val_main_v7 (F := Ideal) x0 x1 i = val_main_v6 (F := Ideal) x0 x1 i := by
  unfold val_main_v7
  exact Cert.LibScatterRead.scatter_replace_apply scatter_S4096x4096_S0_S4096x4096_01_n_n_0 _ _ _ id
    (fun j => scatter_resultIdx _ j) Function.injective_id i

/-- Row `p`, block `b`, offset `k` of the 4096 × 16 × 256 view is row `p`, column `256·b + k`:
    `((16·p + b)·256 + k) / 4096 = p` and `… % 4096 = 256·b + k`. -/
theorem colIdx_left (p : Fin 4096) (k : Fin 256) (b : Fin 16) :
    idx_main_v1 (idx_main_v2 (ix2 p k) b) = Cert.Spec.colIdx p k b :=
  funext fun a => Fin.ext (by
    have := p.isLt; have := k.isLt; have := b.isLt
    match a with
    | ⟨0, _⟩ => show ((p.val * 16 + b.val) * 256 + k.val) / 4096 = p.val; omega
    | ⟨1, _⟩ => show ((p.val * 16 + b.val) * 256 + k.val) % 4096 = 256 * b.val + k.val; omega)

/-- Block `b`, offset `k`, column `o` of the 16 × 256 × 4096 view of the transpose is row `o`, column `256·b + k`:
    `((256·b + k)·4096 + o) / 4096 = 256·b + k` and `… % 4096 = o`, then the transpose swaps the two. -/
theorem colIdx_right (k : Fin 256) (o : Fin 4096) (b : Fin 16) :
    idx_main_v0 (idx_main_v3 (idx_main_v4 (ix2 k o) b)) = Cert.Spec.colIdx o k b :=
  funext fun a => Fin.ext (by
    have := o.isLt; have := k.isLt; have := b.isLt
    match a with
    | ⟨0, _⟩ => show ((b.val * 256 + k.val) * 4096 + o.val) % 4096 = o.val; omega
    | ⟨1, _⟩ => show ((b.val * 256 + k.val) * 4096 + o.val) / 4096 = 256 * b.val + k.val; omega)

/-- The first reduce at `(p, k)`: zero plus the sixteen blocks of row `p` at offset `k`, added left to right. -/
theorem val_main_v2_ix2 (x0 : (⟨S4096x4096, .f32⟩ : BufTy).Contents (Elt Ideal)) (p : Fin 4096) (k : Fin 256) :
    val_main_v2 (F := Ideal) x0 (ix2 p k) = Cert.Spec.rowSum x0 p k := by
  have e : ∀ b : Fin 16, val_main_v1 (F := Ideal) x0 (idx_main_v2 (ix2 p k) b) = x0 (Cert.Spec.colIdx p k b) :=
    fun b => (val_main_v1_apply x0 _).trans (congrArg x0 (colIdx_left p k b))
  rw [val_main_v2_apply, val_main_cst_apply, Ideal.ofBits_def, Ideal.ofBits_zero_f32,
    Finset.sum_congr rfl fun b _ => e b]
  exact Cert.Spec.zero_add_sum16 fun b => x0 (Cert.Spec.colIdx p k b)

/-- The second reduce at `(k, o)`: zero plus the sixteen blocks of row `o` of the second argument at offset `k`. -/
theorem val_main_v4_ix2 (x1 : (⟨S4096x4096, .f32⟩ : BufTy).Contents (Elt Ideal)) (k : Fin 256) (o : Fin 4096) :
    val_main_v4 (F := Ideal) x1 (ix2 k o) = Cert.Spec.rowSum x1 o k := by
  have e : ∀ b : Fin 16, val_main_v3 (F := Ideal) x1 (idx_main_v4 (ix2 k o) b) = x1 (Cert.Spec.colIdx o k b) :=
    fun b => (val_main_v3_apply x1 _).trans ((val_main_v0_apply x1 _).trans (congrArg x1 (colIdx_right k o b)))
  rw [val_main_v4_apply, val_main_cst_0_apply, Ideal.ofBits_def, Ideal.ofBits_zero_f32,
    Finset.sum_congr rfl fun b _ => e b]
  exact Cert.Spec.zero_add_sum16 fun b => x1 (Cert.Spec.colIdx o k b)

/-- The reference's result, stage by stage, is the specification of its three arguments. -/
theorem result_eq (x0 x1 : (⟨S4096x4096, .f32⟩ : BufTy).Contents (Elt Ideal)) (x2 : (⟨S4096, .f32⟩ : BufTy).Contents (Elt Ideal)) :
    val_main_v10 (F := Ideal) x0 x1 x2 = Cert.Spec.G x0 x1 x2 := by
  funext i
  obtain ⟨p, o, rfl⟩ : ∃ (p : Fin 4096) (o : Fin 4096), i = ix2 p o := ⟨i 0, i 1, eq_ix2 i⟩
  have el : ∀ k : Fin 256, lidx_main_v6 (ix2 p o) k = ix2 p k := fun k =>
    funext fun a => by match a with | ⟨0, _⟩ => rfl | ⟨1, _⟩ => rfl
  have er : ∀ k : Fin 256, ridx_main_v6 (ix2 p o) k = ix2 k o := fun k =>
    funext fun a => by match a with | ⟨0, _⟩ => rfl | ⟨1, _⟩ => rfl
  have eb : idx_main_v8 (idx_main_v9 (ix2 p o)) = ix1 o :=
    funext fun a => by match a with | ⟨0, _⟩ => rfl
  rw [val_main_v10_apply, val_main_v7_apply, val_main_v6_apply, val_main_v9_apply, val_main_v8_apply, eb,
    Finset.sum_congr rfl fun k _ => by rw [el k, er k, val_main_v2_ix2, val_main_v4_ix2], Ideal.addf_def]
  rfl

end Cert.ReferenceIdeal.RefValue

end
-- ==== Proof.Region0.lean ====
/-
  Region 0: the sixteen 256-wide column blocks of every row of the input array, summed.

  The grid has eight points; point `t` reads the 512-row band `t` of the 4096 × 4096 input and writes the 512 × 256
  block `t` of the 4096 × 256 output. The body loads the band's sixteen column slices, adds them left to right and
  stores the sum in a narrower float format, which is the identity at the extended reals. So the block written back at
  point `t` is block `t` of `Cert.Spec.foldCols` of the input array, and the eight blocks tile the output array: after
  region 0 the output array IS `foldCols` of the input array, whatever the buffers hold when the region is entered.
-/
import proofs.«156795_j4844723110442_1_alg».proof.Proof.Gen.KernelIdeal.Frame
import proofs.«156795_j4844723110442_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the eight grid points: the input's row block is the output's, both windows sit at
    column block 0, and the row block is one of the eight. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 7 :=
  (by decide +kernel : ∀ t : Fin grid0.N, _)

/-- Every one of the eight row blocks is some grid point's. -/
theorem index_onto : ∀ q : Fin 8, ∃ t : Fin cfg0.N, win0_1.index t = ![q.val, 0] :=
  (by decide +kernel : ∀ q : Fin 8, ∃ t : Fin grid0.N, win0_1.index t = ![q.val, 0])

/-- A 512 × 256 column slice of a 512 × 4096 block starting at column `off`, read at `(p, r)`: the block at row `p`,
    column `off + r`. -/
theorem ld_slice (x0 : Vec Ideal S512x4096 .f32) (off : Nat)
    (inb : ∀ a, (![0, off] : Fin 2 → Nat) a + S512x256.size a ≤ S512x4096.size a)
    (p : Fin 512) (r : Fin 256) (h : off + r.val < 4096) :
    View.ld x0 (Rect.unit (s := S512x4096) ![0, off] S512x256.size inb) (ix2 p r) = x0 (ix2 p ⟨off + r.val, h⟩) := by
  show x0 _ = x0 _
  refine congrArg x0 ?_
  funext a
  apply Fin.ext
  match a with
  | ⟨0, _⟩ => show 0 + 1 * p.val = p.val; omega
  | ⟨1, _⟩ => show off + 1 * r.val = off + r.val; omega

/-- Row `p`, column `256·b + r` of a 512 × 4096 block: offset `r` inside column slice `b`. -/
def sliceIdx (p : Fin 512) (r : Fin 256) (b : Fin 16) : S512x4096.Idx :=
  ix2 p ⟨256 * b.val + r.val, by have := b.isLt; have := r.isLt; omega⟩

/-- What the body leaves from an input block, read at `(p, r)`: the block's sixteen column slices at that place, added
    left to right (the change of float format is the identity at the extended reals). -/
theorem out_apply (x0 : Vec Ideal S512x4096 .f32) (p : Fin 512) (r : Fin 256) :
    out0_1 x0 (ix2 p r) = x0 (sliceIdx p r 0) + x0 (sliceIdx p r 1) + x0 (sliceIdx p r 2) + x0 (sliceIdx p r 3)
      + x0 (sliceIdx p r 4) + x0 (sliceIdx p r 5) + x0 (sliceIdx p r 6) + x0 (sliceIdx p r 7) + x0 (sliceIdx p r 8)
      + x0 (sliceIdx p r 9) + x0 (sliceIdx p r 10) + x0 (sliceIdx p r 11) + x0 (sliceIdx p r 12) + x0 (sliceIdx p r 13)
      + x0 (sliceIdx p r 14) + x0 (sliceIdx p r 15) := by
  have hr := r.isLt
  unfold out0_1
  rw [View.canon_unit_zero hz]
  show View.ld x0 r0_0 (ix2 p r) + View.ld x0 r0_1 (ix2 p r) + View.ld x0 r0_2 (ix2 p r) + View.ld x0 r0_3 (ix2 p r)
      + View.ld x0 r0_4 (ix2 p r) + View.ld x0 r0_5 (ix2 p r) + View.ld x0 r0_6 (ix2 p r) + View.ld x0 r0_7 (ix2 p r)
      + View.ld x0 r0_8 (ix2 p r) + View.ld x0 r0_9 (ix2 p r) + View.ld x0 r0_10 (ix2 p r) + View.ld x0 r0_11 (ix2 p r)
      + View.ld x0 r0_12 (ix2 p r) + View.ld x0 r0_13 (ix2 p r) + View.ld x0 r0_14 (ix2 p r) + View.ld x0 r0_15 (ix2 p r) = _
  rw [ld_slice x0 0 _ p r (by omega), ld_slice x0 256 _ p r (by omega), ld_slice x0 512 _ p r (by omega),
    ld_slice x0 768 _ p r (by omega), ld_slice x0 1024 _ p r (by omega), ld_slice x0 1280 _ p r (by omega),
    ld_slice x0 1536 _ p r (by omega), ld_slice x0 1792 _ p r (by omega), ld_slice x0 2048 _ p r (by omega),
    ld_slice x0 2304 _ p r (by omega), ld_slice x0 2560 _ p r (by omega), ld_slice x0 2816 _ p r (by omega),
    ld_slice x0 3072 _ p r (by omega), ld_slice x0 3328 _ p r (by omega), ld_slice x0 3584 _ p r (by omega),
    ld_slice x0 3840 _ p r (by omega)]
  rfl

/-- The input window's block at point `t`, read at row `p`, column `256·b + r`: the input array at row
    `512·(row block of t) + p`, same column. -/
theorem iblk_apply (c : Dev nD) (t : Fin cfg0.N) (p : Fin 512) (r : Fin 256) (b : Fin 16) (P : Fin 4096)
    (hP : P.val = win0_1.index t (0 : Fin 2) * 512 + p.val) :
    iblk0 (F := Ideal) V c 0 t (sliceIdx p r b) = V c main_arg0 (Cert.Spec.colIdx P r b) := by
  obtain ⟨e0, e1, e2, e3⟩ := index_facts t
  show V c main_arg0 (((cfg0.win 0).blk t).view.emb (sliceIdx p r b)) = V c main_arg0 (Cert.Spec.colIdx P r b)
  refine congrArg (V c main_arg0) ?_
  funext a
  apply Fin.ext
  match a with
  | ⟨0, _⟩ =>
    show win0_0.index t (0 : Fin 2) * 512 + 1 * p.val = P.val
    omega
  | ⟨1, _⟩ =>
    show win0_0.index t (1 : Fin 2) * 4096 + 1 * (256 * b.val + r.val) = 256 * b.val + r.val
    omega

/-- Block `t` of the column-folded input array, read at `(p, r)`: the row sum at row `512·(row block of t) + p`. -/
theorem read_fold_apply (x : Cert.Spec.Sq.Idx → EReal) (t : Fin cfg0.N) (p : Fin 512) (r : Fin 256) (P : Fin 4096)
    (hP : P.val = win0_1.index t (0 : Fin 2) * 512 + p.val) :
    ((cfg0.win 1).blk t).view.read (Elt Ideal) (Cert.Spec.foldCols x) (ix2 p r) = Cert.Spec.rowSum x P r := by
  obtain ⟨e0, e1, e2, e3⟩ := index_facts t
  show Cert.Spec.foldCols x (((cfg0.win 1).blk t).view.emb (ix2 p r)) = _
  have h : ((cfg0.win 1).blk t).view.emb (ix2 p r) = ix2 P r := by
    funext a
    apply Fin.ext
    match a with
    | ⟨0, _⟩ =>
      show win0_1.index t (0 : Fin 2) * 512 + 1 * p.val = P.val
      omega
    | ⟨1, _⟩ =>
      show win0_1.index t (1 : Fin 2) * 256 + 1 * r.val = r.val
      omega
  rw [h, Cert.Spec.foldCols_ix2]

/-- What point `t` writes back is block `t` of the column-folded input array. -/
theorem flushed_eq (c : Dev nD) (t : Fin cfg0.N) :
    (dat0 (F := Ideal) V c).flushed 1 t
      = ((cfg0.win 1).blk t).view.read (Elt Ideal) (Cert.Spec.foldCols (V c main_arg0)) := by
  obtain ⟨e0, e1, e2, e3⟩ := index_facts t
  show (cfg0.win 1).cut (grid0.coords t) ((dat0 (F := Ideal) V c).after 1 t) = _
  rw [after0_1]
  funext j
  obtain ⟨p, r, rfl⟩ : ∃ (p : Fin 512) (r : Fin 256), j = ix2 p r := ⟨j 0, j 1, eq_ix2 j⟩
  have hp := p.isLt
  show out0_1 (iblk0 V c 0 t) (ix2 p r) = _
  obtain ⟨P, hP⟩ : ∃ P : Fin 4096, P.val = win0_1.index t (0 : Fin 2) * 512 + p.val := ⟨⟨_, by omega⟩, rfl⟩
  rw [out_apply, read_fold_apply (V c main_arg0) t p r P hP]
  unfold Cert.Spec.rowSum
  rw [iblk_apply V c t p r 0 P hP, iblk_apply V c t p r 1 P hP, iblk_apply V c t p r 2 P hP,
    iblk_apply V c t p r 3 P hP, iblk_apply V c t p r 4 P hP, iblk_apply V c t p r 5 P hP,
    iblk_apply V c t p r 6 P hP, iblk_apply V c t p r 7 P hP, iblk_apply V c t p r 8 P hP,
    iblk_apply V c t p r 9 P hP, iblk_apply V c t p r 10 P hP, iblk_apply V c t p r 11 P hP,
    iblk_apply V c t p r 12 P hP, iblk_apply V c t p r 13 P hP, iblk_apply V c t p r 14 P hP,
    iblk_apply V c t p r 15 P hP]

/-- An index of the output array is in point `t`'s block iff each coordinate is in the block's range on its axis. -/
theorem mem_blk (t : Fin cfg0.N) (i : S4096x256.Idx) :
    i ∈ ((cfg0.win 1).blk t).view.set ↔ ∀ a : Fin 2, win0_1.index t a * S512x256.size a ≤ (i a).val
      ∧ (i a).val < win0_1.index t a * S512x256.size a + S512x256.size a := by
  show i ∈ ((View.whole main_v0).slice (win0_1.rect t)).set ↔ _
  rw [View.set_slice_whole, Rect.mem_set_unit]
  exact Iff.rfl

/-- The eight row blocks cover the output array: row `i 0` lies in row block `i 0 / 512`. -/
theorem cover (i : S4096x256.Idx) :
    ∃ t : Fin cfg0.N, (cfg0.win 1).flush t = true ∧ i ∈ ((cfg0.win 1).blk t).view.set := by
  have hi0 : (i 0).val < 4096 := (i 0).isLt
  have hi1 : (i 1).val < 256 := (i 1).isLt
  obtain ⟨t, ht⟩ := index_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 256 ≤ (i 1).val ∧ (i 1).val < win0_1.index t (1 : Fin 2) * 256 + 256
    omega

/-- After region 0 its output array holds, at every index, the sixteen column blocks of the input array's row summed
    left to right — whatever the TensorCore's buffers `V` hold when the region is entered. -/
theorem final (c : Dev nD) :
    (dat0 (F := Ideal) V c).arrAt 1 cfg0.N = Cert.Spec.foldCols (V c main_arg0) := by
  exact (dat0 (F := Ideal) V c).arrAt_eq_of_cover 1 (Cert.Spec.foldCols (V c main_arg0))
    (fun t _ => flushed_eq V c t) cover

end Cert.KernelIdeal.Region0

end
-- ==== Proof.Region1.lean ====
/-
  Region 1: the sixteen 256-wide column blocks of every row of the input array, summed.

  The grid has eight points; point `t` reads the 512-row band `t` of the 4096 × 4096 input and writes the 512 × 256
  block `t` of the 4096 × 256 output. The body loads the band's sixteen column slices, adds them left to right and
  stores the sum in a narrower float format, which is the identity at the extended reals. So the block written back at
  point `t` is block `t` of `Cert.Spec.foldCols` of the input array, and the eight blocks tile the output array: after
  region 1 the output array IS `foldCols` of the input array, whatever the buffers hold when the region is entered.
-/
import proofs.«156795_j4844723110442_1_alg».proof.Proof.Gen.KernelIdeal.Frame
import proofs.«156795_j4844723110442_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the eight grid points: the input's row block is the output's, both windows sit at
    column block 0, and the row block is one of the eight. -/
theorem index_facts : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 7 :=
  (by decide +kernel : ∀ t : Fin grid1.N, _)

/-- Every one of the eight row blocks is some grid point's. -/
theorem index_onto : ∀ q : Fin 8, ∃ t : Fin cfg1.N, win1_1.index t = ![q.val, 0] :=
  (by decide +kernel : ∀ q : Fin 8, ∃ t : Fin grid1.N, win1_1.index t = ![q.val, 0])

/-- A 512 × 256 column slice of a 512 × 4096 block starting at column `off`, read at `(p, r)`: the block at row `p`,
    column `off + r`. -/
theorem ld_slice (x0 : Vec Ideal S512x4096 .f32) (off : Nat)
    (inb : ∀ a, (![0, off] : Fin 2 → Nat) a + S512x256.size a ≤ S512x4096.size a)
    (p : Fin 512) (r : Fin 256) (h : off + r.val < 4096) :
    View.ld x0 (Rect.unit (s := S512x4096) ![0, off] S512x256.size inb) (ix2 p r) = x0 (ix2 p ⟨off + r.val, h⟩) := by
  show x0 _ = x0 _
  refine congrArg x0 ?_
  funext a
  apply Fin.ext
  match a with
  | ⟨0, _⟩ => show 0 + 1 * p.val = p.val; omega
  | ⟨1, _⟩ => show off + 1 * r.val = off + r.val; omega

/-- Row `p`, column `256·b + r` of a 512 × 4096 block: offset `r` inside column slice `b`. -/
def sliceIdx (p : Fin 512) (r : Fin 256) (b : Fin 16) : S512x4096.Idx :=
  ix2 p ⟨256 * b.val + r.val, by have := b.isLt; have := r.isLt; omega⟩

/-- What the body leaves from an input block, read at `(p, r)`: the block's sixteen column slices at that place, added
    left to right (the change of float format is the identity at the extended reals). -/
theorem out_apply (x0 : Vec Ideal S512x4096 .f32) (p : Fin 512) (r : Fin 256) :
    out1_1 x0 (ix2 p r) = x0 (sliceIdx p r 0) + x0 (sliceIdx p r 1) + x0 (sliceIdx p r 2) + x0 (sliceIdx p r 3)
      + x0 (sliceIdx p r 4) + x0 (sliceIdx p r 5) + x0 (sliceIdx p r 6) + x0 (sliceIdx p r 7) + x0 (sliceIdx p r 8)
      + x0 (sliceIdx p r 9) + x0 (sliceIdx p r 10) + x0 (sliceIdx p r 11) + x0 (sliceIdx p r 12) + x0 (sliceIdx p r 13)
      + x0 (sliceIdx p r 14) + x0 (sliceIdx p r 15) := by
  have hr := r.isLt
  unfold out1_1
  rw [View.canon_unit_zero hz]
  show View.ld x0 r1_0 (ix2 p r) + View.ld x0 r1_1 (ix2 p r) + View.ld x0 r1_2 (ix2 p r) + View.ld x0 r1_3 (ix2 p r)
      + View.ld x0 r1_4 (ix2 p r) + View.ld x0 r1_5 (ix2 p r) + View.ld x0 r1_6 (ix2 p r) + View.ld x0 r1_7 (ix2 p r)
      + View.ld x0 r1_8 (ix2 p r) + View.ld x0 r1_9 (ix2 p r) + View.ld x0 r1_10 (ix2 p r) + View.ld x0 r1_11 (ix2 p r)
      + View.ld x0 r1_12 (ix2 p r) + View.ld x0 r1_13 (ix2 p r) + View.ld x0 r1_14 (ix2 p r) + View.ld x0 r1_15 (ix2 p r) = _
  rw [ld_slice x0 0 _ p r (by omega), ld_slice x0 256 _ p r (by omega), ld_slice x0 512 _ p r (by omega),
    ld_slice x0 768 _ p r (by omega), ld_slice x0 1024 _ p r (by omega), ld_slice x0 1280 _ p r (by omega),
    ld_slice x0 1536 _ p r (by omega), ld_slice x0 1792 _ p r (by omega), ld_slice x0 2048 _ p r (by omega),
    ld_slice x0 2304 _ p r (by omega), ld_slice x0 2560 _ p r (by omega), ld_slice x0 2816 _ p r (by omega),
    ld_slice x0 3072 _ p r (by omega), ld_slice x0 3328 _ p r (by omega), ld_slice x0 3584 _ p r (by omega),
    ld_slice x0 3840 _ p r (by omega)]
  rfl

/-- The input window's block at point `t`, read at row `p`, column `256·b + r`: the input array at row
    `512·(row block of t) + p`, same column. -/
theorem iblk_apply (c : Dev nD) (t : Fin cfg1.N) (p : Fin 512) (r : Fin 256) (b : Fin 16) (P : Fin 4096)
    (hP : P.val = win1_1.index t (0 : Fin 2) * 512 + p.val) :
    iblk1 (F := Ideal) V c 0 t (sliceIdx p r b) = V c main_arg1 (Cert.Spec.colIdx P r b) := by
  obtain ⟨e0, e1, e2, e3⟩ := index_facts t
  show V c main_arg1 (((cfg1.win 0).blk t).view.emb (sliceIdx p r b)) = V c main_arg1 (Cert.Spec.colIdx P r b)
  refine congrArg (V c main_arg1) ?_
  funext a
  apply Fin.ext
  match a with
  | ⟨0, _⟩ =>
    show win1_0.index t (0 : Fin 2) * 512 + 1 * p.val = P.val
    omega
  | ⟨1, _⟩ =>
    show win1_0.index t (1 : Fin 2) * 4096 + 1 * (256 * b.val + r.val) = 256 * b.val + r.val
    omega

/-- Block `t` of the column-folded input array, read at `(p, r)`: the row sum at row `512·(row block of t) + p`. -/
theorem read_fold_apply (x : Cert.Spec.Sq.Idx → EReal) (t : Fin cfg1.N) (p : Fin 512) (r : Fin 256) (P : Fin 4096)
    (hP : P.val = win1_1.index t (0 : Fin 2) * 512 + p.val) :
    ((cfg1.win 1).blk t).view.read (Elt Ideal) (Cert.Spec.foldCols x) (ix2 p r) = Cert.Spec.rowSum x P r := by
  obtain ⟨e0, e1, e2, e3⟩ := index_facts t
  show Cert.Spec.foldCols x (((cfg1.win 1).blk t).view.emb (ix2 p r)) = _
  have h : ((cfg1.win 1).blk t).view.emb (ix2 p r) = ix2 P r := by
    funext a
    apply Fin.ext
    match a with
    | ⟨0, _⟩ =>
      show win1_1.index t (0 : Fin 2) * 512 + 1 * p.val = P.val
      omega
    | ⟨1, _⟩ =>
      show win1_1.index t (1 : Fin 2) * 256 + 1 * r.val = r.val
      omega
  rw [h, Cert.Spec.foldCols_ix2]

/-- What point `t` writes back is block `t` of the column-folded input array. -/
theorem flushed_eq (c : Dev nD) (t : Fin cfg1.N) :
    (dat1 (F := Ideal) V c).flushed 1 t
      = ((cfg1.win 1).blk t).view.read (Elt Ideal) (Cert.Spec.foldCols (V c main_arg1)) := by
  obtain ⟨e0, e1, e2, e3⟩ := index_facts t
  show (cfg1.win 1).cut (grid1.coords t) ((dat1 (F := Ideal) V c).after 1 t) = _
  rw [after1_1]
  funext j
  obtain ⟨p, r, rfl⟩ : ∃ (p : Fin 512) (r : Fin 256), j = ix2 p r := ⟨j 0, j 1, eq_ix2 j⟩
  have hp := p.isLt
  show out1_1 (iblk1 V c 0 t) (ix2 p r) = _
  obtain ⟨P, hP⟩ : ∃ P : Fin 4096, P.val = win1_1.index t (0 : Fin 2) * 512 + p.val := ⟨⟨_, by omega⟩, rfl⟩
  rw [out_apply, read_fold_apply (V c main_arg1) t p r P hP]
  unfold Cert.Spec.rowSum
  rw [iblk_apply V c t p r 0 P hP, iblk_apply V c t p r 1 P hP, iblk_apply V c t p r 2 P hP,
    iblk_apply V c t p r 3 P hP, iblk_apply V c t p r 4 P hP, iblk_apply V c t p r 5 P hP,
    iblk_apply V c t p r 6 P hP, iblk_apply V c t p r 7 P hP, iblk_apply V c t p r 8 P hP,
    iblk_apply V c t p r 9 P hP, iblk_apply V c t p r 10 P hP, iblk_apply V c t p r 11 P hP,
    iblk_apply V c t p r 12 P hP, iblk_apply V c t p r 13 P hP, iblk_apply V c t p r 14 P hP,
    iblk_apply V c t p r 15 P hP]

/-- An index of the output array is in point `t`'s block iff each coordinate is in the block's range on its axis. -/
theorem mem_blk (t : Fin cfg1.N) (i : S4096x256.Idx) :
    i ∈ ((cfg1.win 1).blk t).view.set ↔ ∀ a : Fin 2, win1_1.index t a * S512x256.size a ≤ (i a).val
      ∧ (i a).val < win1_1.index t a * S512x256.size a + S512x256.size a := by
  show i ∈ ((View.whole main_v1).slice (win1_1.rect t)).set ↔ _
  rw [View.set_slice_whole, Rect.mem_set_unit]
  exact Iff.rfl

/-- The eight row blocks cover the output array: row `i 0` lies in row block `i 0 / 512`. -/
theorem cover (i : S4096x256.Idx) :
    ∃ t : Fin cfg1.N, (cfg1.win 1).flush t = true ∧ i ∈ ((cfg1.win 1).blk t).view.set := by
  have hi0 : (i 0).val < 4096 := (i 0).isLt
  have hi1 : (i 1).val < 256 := (i 1).isLt
  obtain ⟨t, ht⟩ := index_onto ⟨(i 0).val / 512, by omega⟩
  have q0 : win1_1.index t (0 : Fin 2) = (i 0).val / 512 := congrFun ht 0
  have q1 : win1_1.index t (1 : Fin 2) = 0 := congrFun ht 1
  refine ⟨t, flush1_1 t, ?_⟩
  rw [mem_blk]
  intro a
  match a with
  | ⟨0, _⟩ =>
    show win1_1.index t (0 : Fin 2) * 512 ≤ (i 0).val ∧ (i 0).val < win1_1.index t (0 : Fin 2) * 512 + 512
    omega
  | ⟨1, _⟩ =>
    show win1_1.index t (1 : Fin 2) * 256 ≤ (i 1).val ∧ (i 1).val < win1_1.index t (1 : Fin 2) * 256 + 256
    omega

/-- After region 1 its output array holds, at every index, the sixteen column blocks of the input array's row summed
    left to right — whatever the TensorCore's buffers `V` hold when the region is entered. -/
theorem final (c : Dev nD) :
    (dat1 (F := Ideal) V c).arrAt 1 cfg1.N = Cert.Spec.foldCols (V c main_arg1) := by
  exact (dat1 (F := Ideal) V c).arrAt_eq_of_cover 1 (Cert.Spec.foldCols (V c main_arg1))
    (fun t _ => flushed_eq V c t) cover

end Cert.KernelIdeal.Region1

end
-- ==== Proof.Region2.lean ====
/-
  Region 2: `a · bᵀ + bias` in 1024 × 1024 blocks.

  The grid is 4 × 4; point `(bi, bj)` reads the 1024-row band `bi` of the left 4096 × 256 array, the band `bj` of the
  right one and the columns `1024·bj …` of the bias row, and writes block `(bi, bj)` of the 4096 × 4096 output. The body
  multiplies the two bands contracting their second axes into a zero accumulator — at the extended reals entry `(p, q)`
  is the sum over `k` of `a (p, k) · b (q, k)` — and adds the bias row to every row. So the block written back is the
  block of `Cert.Spec.mmBias` of the three arrays, and the sixteen blocks tile the output array.
-/
import proofs.«156795_j4844723110442_1_alg».proof.Proof.Gen.KernelIdeal.Frame
import proofs.«156795_j4844723110442_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The product's operand indices, axis by axis

The product contracts axis 1 of both operands: at result index `i` and contraction index `q` the left operand is read
at `(i 0, q)` and the right one at `(i 1, q)`. -/

theorem lhs_dot_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_dot_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_dot_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_dot_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product into a zero accumulator, read at `(p, q)`: the sum over `k` of `a (p, k) · b (q, k)`. -/
theorem matmul_apply (a b : FVec Ideal S1024x256 .bf16) (p q : Fin 1024) :
    matmul (F := Ideal) dot_S1024x256_S1024x256_S1024x1024_1_1_0_0_n_n none a b (constant (F := Ideal) S1024x1024 .f32 0x00000000#32) (ix2 p q)
      = ∑ k : Fin 256, a (ix2 p k) * b (ix2 q k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun x => Fin.ext (by
    match x with
    | ⟨0, _⟩ => exact lhs_dot_0 _ _
    | ⟨1, _⟩ => exact (lhs_dot_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun x => Fin.ext (by
    match x with
    | ⟨0, _⟩ => exact rhs_dot_0 _ _
    | ⟨1, _⟩ => exact (rhs_dot_1 _ _).trans hk)
  rw [el, er]

/-- The bias row laid along every row of the block, read at `(p, q)`: the row's entry `q`. -/
theorem bias_apply (bias : Vec Ideal S1x1024 .f32) (p q : Fin 1024) :
    broadcastTo S1024x1024 (shapeCast S1x1024 bias shapeCasts_S1x1024_S1x1024) broadcasts_S1x1024_S1024x1024 (ix2 p q) = bias (ix2 0 q) := by
  rw [shapeCast_self]
  refine broadcastTo_apply bias broadcasts_S1x1024_S1024x1024 (ix2 p q) (ix2 0 q) (fun x => ?_)
  match x with
  | ⟨0, _⟩ => show (0 : Nat) = if (1 : Nat) = 1 then 0 else p.val; rw [if_pos rfl]
  | ⟨1, _⟩ => show q.val = if (1024 : Nat) = 1 then 0 else q.val; rw [if_neg (by decide)]

/-- THE BODY'S RESULT AT AN INDEX: entry `(p, q)` of the block it stores is the sum over `k` of `a (p, k) · b (q, k)`
    plus the bias row's entry `q`. -/
theorem pay_apply (a b : Vec Ideal S1024x256 .bf16) (bias : Vec Ideal S1x1024 .f32) (p q : Fin 1024) :
    k2_pay1 (F := Ideal) a b bias (ix2 p q) = (∑ k : Fin 256, a (ix2 p k) * b (ix2 q k)) + bias (ix2 0 q) := by
  unfold k2_pay1
  rw [addf_apply, shapeCast_self, shapeCast_self, matmul_apply, bias_apply]

/-- The same at any index of the block. -/
theorem pay_at (a b : Vec Ideal S1024x256 .bf16) (bias : Vec Ideal S1x1024 .f32) (j : S1024x1024.Idx) :
    k2_pay1 (F := Ideal) a b bias j
      = (∑ k : Fin 256, a (ix2 ⟨(j 0).val, idx2_lt0 j⟩ k) * b (ix2 ⟨(j 1).val, idx2_lt1 j⟩ k)) + bias (ix2 0 ⟨(j 1).val, idx2_lt1 j⟩) := by
  obtain ⟨p, q, rfl⟩ : ∃ (p : Fin 1024) (q : Fin 1024), j = ix2 p q := ⟨j 0, j 1, eq_ix2 j⟩
  exact pay_apply a b bias p q

/-! ## From the sixteen blocks to the array

Point `t` of the 4 × 4 grid, with output block index `(bi, bj)`, reads row block `bi` of the left array, row block `bj`
of the right array and column block `bj` of the bias row, and writes block `(bi, bj)` of the output. -/

theorem hz : (![0, 0] : Fin 2 → Nat) = fun _ => 0 := funext fun a => by
  match a with
  | ⟨0, _⟩ => rfl
  | ⟨1, _⟩ => rfl

/-- The index maps, decided over the sixteen points: the left operand's row block is the output's row block, the right
    operand's row block and the bias's column block are the output's column block, the operands' column block and the
    bias's row block are `0`, and the output's block indices are at most `3`. -/
theorem idx_facts : ∀ t : Fin cfg2.N, win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 3 ∧ win2_3.index t (1 : Fin 2) ≤ 3 :=
  (by decide +kernel : ∀ t : Fin grid2.N, _)

/-- Every one of the sixteen output blocks is some point's. -/
theorem idx_onto : ∀ (q0 q1 : Fin 4), ∃ t : Fin cfg2.N, win2_3.index t = ![q0.val, q1.val] :=
  (by decide +kernel : ∀ (q0 q1 : Fin 4), ∃ t : Fin grid2.N, win2_3.index t = ![q0.val, q1.val])

/-- Point `t`'s block of the left array at `(p, k)` is the array at row `1024 · bi + p`, column `k`. -/
theorem blk0_apply (c : Dev nD) (t : Fin cfg2.N) (p : Fin 1024) (k : Fin 256) (P : Fin 4096)
    (hP : P.val = win2_3.index t (0 : Fin 2) * 1024 + p.val) :
    (iblk2 V c 0 t : Vec Ideal S1024x256 .bf16) (ix2 p k) = (V c main_v0 : S4096x256.Idx → Elt Ideal .bf16) (ix2 P k) := by
  obtain ⟨e0, e1, -⟩ := idx_facts t
  unfold iblk2
  rw [View.read_apply]
  show V c main_v0 _ = V c main_v0 _
  refine congrArg (V c main_v0) (funext fun a => Fin.ext ?_)
  match a with
  | ⟨0, _⟩ => show win2_0.index t (0 : Fin 2) * 1024 + 1 * p.val = P.val; rw [e0, hP]; omega
  | ⟨1, _⟩ => show win2_0.index t (1 : Fin 2) * 256 + 1 * k.val = k.val; rw [e1]; omega

/-- Point `t`'s block of the right array at `(q, k)` is the array at row `1024 · bj + q`, column `k`. -/
theorem blk1_apply (c : Dev nD) (t : Fin cfg2.N) (q : Fin 1024) (k : Fin 256) (Q : Fin 4096)
    (hQ : Q.val = win2_3.index t (1 : Fin 2) * 1024 + q.val) :
    (iblk2 V c 1 t : Vec Ideal S1024x256 .bf16) (ix2 q k) = (V c main_v1 : S4096x256.Idx → Elt Ideal .bf16) (ix2 Q k) := by
  obtain ⟨-, -, e0, e1, -⟩ := idx_facts t
  unfold iblk2
  rw [View.read_apply]
  show V c main_v1 _ = V c main_v1 _
  refine congrArg (V c main_v1) (funext fun a => Fin.ext ?_)
  match a with
  | ⟨0, _⟩ => show win2_1.index t (0 : Fin 2) * 1024 + 1 * q.val = Q.val; rw [e0, hQ]; omega
  | ⟨1, _⟩ => show win2_1.index t (1 : Fin 2) * 256 + 1 * k.val = k.val; rw [e1]; omega

/-- Point `t`'s block of the bias row at `(0, q)` is the row at column `1024 · bj + q`. -/
theorem blk2_apply (c : Dev nD) (t : Fin cfg2.N) (q : Fin 1024) (Q : Fin 4096)
    (hQ : Q.val = win2_3.index t (1 : Fin 2) * 1024 + q.val) :
    (iblk2 V c 2 t : Vec Ideal S1x1024 .f32) (ix2 0 q) = (V c main_v2 : S1x4096.Idx → Elt Ideal .f32) (ix2 0 Q) := by
  obtain ⟨-, -, -, -, e0, e1, -⟩ := idx_facts t
  unfold iblk2
  rw [View.read_apply]
  show V c main_v2 _ = V c main_v2 _
  refine congrArg (V c main_v2) (funext fun a => Fin.ext ?_)
  match a with
  | ⟨0, _⟩ => show win2_2.index t (0 : Fin 2) * 1 + 1 * 0 = 0; rw [e0]
  | ⟨1, _⟩ => show win2_2.index t (1 : Fin 2) * 1024 + 1 * q.val = Q.val; rw [e1, hQ]; omega

/-- `a · bᵀ + bias` at the index with coordinates `(P, Q)`. -/
theorem mmBias_ix2 (a b : Cert.Spec.Red.Idx → EReal) (bias : Cert.Spec.Row.Idx → EReal) (P Q : Fin 4096) :
    Cert.Spec.mmBias a b bias (ix2 P Q) = (∑ k : Fin 256, a (ix2 P k) * b (ix2 Q k)) + bias (ix2 0 Q) := rfl

/-- WHAT POINT `t` WRITES BACK is block `t` of `a · bᵀ + bias` of the three arrays as the region finds them. -/
theorem flushed_eq (c : Dev nD) (t : Fin cfg2.N) :
    (dat2 (F := Ideal) V c).flushed 3 t
      = ((cfg2.win 3).blk t).view.read (Elt Ideal) (Cert.Spec.mmBias (V c main_v0) (V c main_v1) (V c main_v2)) := by
  show (cfg2.win 3).cut (grid2.coords t) ((dat2 (F := Ideal) V c).after 3 t) = _
  rw [after2_3]
  unfold out2_3
  rw [View.canon_unit_zero hz]
  simp only [View.ld_unit_zero (S := S1024x256) hz, View.ld_unit_zero (S := S1x1024) hz]
  obtain ⟨-, -, -, -, -, -, b0, b1⟩ := idx_facts t
  funext j
  have hj0 : (j 0).val < 1024 := (j 0).isLt
  have hj1 : (j 1).val < 1024 := (j 1).isLt
  rw [View.read_apply]
  have hemb : ((cfg2.win 3).blk t).view.emb j
      = (ix2 (⟨win2_3.index t (0 : Fin 2) * 1024 + (j 0).val, by omega⟩ : Fin 4096) (⟨win2_3.index t (1 : Fin 2) * 1024 + (j 1).val, by omega⟩ : Fin 4096) : S4096x4096.Idx) := by
    funext a; apply Fin.ext
    match a with
    | ⟨0, _⟩ => show win2_3.index t (0 : Fin 2) * 1024 + 1 * (j 0).val = win2_3.index t (0 : Fin 2) * 1024 + (j 0).val; omega
    | ⟨1, _⟩ => show win2_3.index t (1 : Fin 2) * 1024 + 1 * (j 1).val = win2_3.index t (1 : Fin 2) * 1024 + (j 1).val; omega
  rw [hemb, mmBias_ix2]
  refine (pay_at _ _ _ _).trans ?_
  refine congrArg₂ (· + ·) (Finset.sum_congr rfl fun k _ => congrArg₂ (· * ·) ?_ ?_) ?_
  · exact blk0_apply V c t _ k _ rfl
  · exact blk1_apply V c t _ k _ rfl
  · exact blk2_apply V c t _ _ rfl

/-- An index of the output array is in point `t`'s block iff each coordinate is in the block's range on its axis. -/
theorem mem_blk (t : Fin cfg2.N) (i : S4096x4096.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v3).slice (win2_3.rect t)).set ↔ _
  rw [View.set_slice_whole, Rect.mem_set_unit]
  exact Iff.rfl

/-- The sixteen blocks cover the output: index `(P, Q)` is in block `(P / 1024, Q / 1024)`. -/
theorem cover (i : S4096x4096.Idx) :
    ∃ t : Fin cfg2.N, (cfg2.win 3).flush t = true ∧ i ∈ ((cfg2.win 3).blk t).view.set := by
  have hi0 : (i 0).val < 4096 := idx2_lt0 i
  have hi1 : (i 1).val < 4096 := idx2_lt1 i
  obtain ⟨t, ht⟩ := idx_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- After region 2 its output array holds `a · bᵀ + bias` of the three input arrays as the region finds them. -/
theorem final (c : Dev nD) :
    (dat2 (F := Ideal) V c).arrAt 3 cfg2.N = Cert.Spec.mmBias (V c main_v0) (V c main_v1) (V c main_v2) := by
  exact (dat2 (F := Ideal) V c).arrAt_eq_of_cover 3 _ (fun t _ => flushed_eq V c t) cover

end Cert.KernelIdeal.Region2

end
-- ==== Proof.Chain.lean ====
/-
  The result array after the run, read back through @main's four segments to the launch memory.

  @main is: region 0 (writes `R x` into its output array, reading `x`), region 1 (the same for `w`), one host
  operation (the bias laid out as a 1 × 4096 row), region 2 (`a · bᵀ + bias` of those three arrays). Each region leaves
  every buffer but its own output as it found it, and the host operation writes only the bias row; so the three arrays
  region 2 reads are `R x`, `R w` and the bias row of the LAUNCH contents, and the result is the specification.
-/
import proofs.«156795_j4844723110442_1_alg».proof.Proof.Gen.KernelIdeal.Frame
import proofs.«156795_j4844723110442_1_alg».proof.Proof.Spec
import proofs.«156795_j4844723110442_1_alg».proof.Proof.Region0
import proofs.«156795_j4844723110442_1_alg».proof.Proof.Region1
import proofs.«156795_j4844723110442_1_alg».proof.Proof.Region2
import Idealize.ShloMosaic.Lib.StableHlo.Run
import Idealize.ShloMosaic.Lib.Pipeline.Value
import Idealize.ShloMosaic.Lib.ValueIdx

set_option maxRecDepth 16384

noncomputable section

namespace Cert.KernelIdeal.Chain

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- Region 2 finds in its first input array what region 0 left there: `R x` of the launch contents. Neither the host
    operation nor region 1 writes that array. -/
theorem entry2_v0 (c : Dev nD) :
    V3 (F := Ideal) m ρ c main_v0 = Cert.Spec.foldCols (m ((c : Thread nD τ).loc main_arg0)) :=
  calc W3 (F := Ideal) m ρ c (Proc.devRef .tc main_v0)
    _ = W2 m ρ c (Proc.devRef .tc main_v0) := StableHlo.after_of_forall_not_mem (b := Proc.devRef .tc main_v0) _ _ (List.forall_iff_forall_mem.mp (by
      simp only [hostOps2, List.Forall, StableHlo.reshape_writes, Finset.mem_singleton]
      exact StableHlo.devRef_ne_of_ne (by decide)))
    _ = W1 m ρ c (Proc.devRef .tc main_v0) := W2_of_ne m ρ c main_v0 (by decide)
    _ = (dat0 (V0 m ρ) c).arrAt 1 cfg0.N := W1_arr m ρ c 1
    _ = Cert.Spec.foldCols (V0 m ρ c main_arg0) := Cert.KernelIdeal.Region0.final (V0 m ρ) c
    _ = Cert.Spec.foldCols (m ((c : Thread nD τ).loc main_arg0)) := rfl

/-- Region 1 finds its input array `w` as launched: region 0 does not write it. -/
theorem entry1_arg1 (c : Dev nD) : V1 (F := Ideal) m ρ c main_arg1 = m ((c : Thread nD τ).loc main_arg1) :=
  calc W1 (F := Ideal) m ρ c (Proc.devRef .tc main_arg1)
    _ = W0 m ρ c (Proc.devRef .tc main_arg1) := W1_of_ne m ρ c main_arg1 (by decide)
    _ = m ((c : Thread nD τ).loc main_arg1) := rfl

/-- Region 2 finds in its second input array what region 1 left there: `R w` of the launch contents. -/
theorem entry2_v1 (c : Dev nD) :
    V3 (F := Ideal) m ρ c main_v1 = Cert.Spec.foldCols (m ((c : Thread nD τ).loc main_arg1)) :=
  calc W3 (F := Ideal) m ρ c (Proc.devRef .tc main_v1)
    _ = W2 m ρ c (Proc.devRef .tc main_v1) := StableHlo.after_of_forall_not_mem (b := Proc.devRef .tc main_v1) _ _ (List.forall_iff_forall_mem.mp (by
      simp only [hostOps2, List.Forall, StableHlo.reshape_writes, Finset.mem_singleton]
      exact StableHlo.devRef_ne_of_ne (by decide)))
    _ = (dat1 (V1 m ρ) c).arrAt 1 cfg1.N := W2_arr m ρ c 1
    _ = Cert.Spec.foldCols (V1 m ρ c main_arg1) := Cert.KernelIdeal.Region1.final (V1 m ρ) c
    _ = Cert.Spec.foldCols (m ((c : Thread nD τ).loc main_arg1)) := by rw [entry1_arg1]

/-- The bias reaches the host operation as launched: neither region 0 nor region 1 writes it. -/
theorem exit1_arg2 (c : Dev nD) : W2 (F := Ideal) m ρ c (Proc.devRef .tc main_arg2) = m ((c : Thread nD τ).loc main_arg2) :=
  calc W2 (F := Ideal) m ρ c (Proc.devRef .tc main_arg2)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- A vector of length 4096 laid out as one row: entry `(0, o)` is entry `o`. -/
theorem asRow_eq (b : S4096.Idx → EReal) :
    shapeCast S1x4096 b shapeCasts_S4096_S1x4096 = Cert.Spec.asRow b := by
  funext j
  unfold Cert.Spec.asRow
  refine shapeCast_apply b shapeCasts_S4096_S1x4096 j _ ?_
  rw [Shape.rowMajor_val_two, Shape.rowMajor_val_one]
  have h0 : (j 0).val < 1 := (j 0).isLt
  show (j 1).val = (j 0).val * 4096 + (j 1).val
  omega

/-- Region 2 finds in its third input array the launch bias as one row. -/
theorem entry2_v2 (c : Dev nD) :
    V3 (F := Ideal) m ρ c main_v2 = Cert.Spec.asRow (m ((c : Thread nD τ).loc main_arg2)) := by
  have h : W3 (F := Ideal) m ρ c (Proc.devRef .tc main_v2)
      = shapeCast S1x4096 (W2 (F := Ideal) m ρ c (Proc.devRef .tc main_arg2)) shapeCasts_S4096_S1x4096 := by
    show StableHlo.after hostOps2 (W2 (F := Ideal) m ρ c) (Proc.devRef .tc main_v2) = _
    after_results
    rfl
  show W3 (F := Ideal) m ρ c (Proc.devRef .tc main_v2) = _
  rw [h, exit1_arg2, asRow_eq]

/-- What the fold through @main leaves in the result array is the specification of the launch contents. -/
theorem result_eq (c : Dev nD) :
    W4 (F := Ideal) m ρ c (Proc.devRef .tc main_v3)
      = Cert.Spec.G (m ((c : Thread nD τ).loc main_arg0)) (m ((c : Thread nD τ).loc main_arg1)) (m ((c : Thread nD τ).loc main_arg2)) := by
  have h : W4 (F := Ideal) m ρ c (Proc.devRef .tc main_v3) = (dat2 (V3 m ρ) c).arrAt 3 cfg2.N := W4_arr m ρ c 3
  rw [h, Cert.KernelIdeal.Region2.final (V3 m ρ) c, entry2_v0, entry2_v1, entry2_v2]
  rfl

end Cert.KernelIdeal.Chain

end
-- ==== Proof.lean ====
/-
  The proof of `Cert.Claim`: the three frames, `preserves` and `algebraic` for a linear layer computed from
  column-block sums.

  THE MATHEMATICS. With `x`, `w` of shape 4096 × 4096 and `bias` of length 4096, both programs compute
      out (p, o) = (∑ k < 256, R x (p, k) · R w (o, k)) + bias o,    R a (p, r) = ∑ b < 16, a (p, 256·b + r),
  the sum of the sixteen 256-wide column blocks of a row (Proof/Spec.lean: `Cert.Spec.G`).
  * The kernel does it in three pipelined regions: two that form `R x` and `R w` (each grid point loads a 512-row
    band, adds its sixteen column slices left to right and writes the 512 × 256 block back in a narrower float format:
    the identity at the extended reals), and one that forms `R x · (R w)ᵀ + bias` in 1024 × 1024 blocks (a product into
    a zero accumulator, the bias row broadcast over the rows). Each region's output array is its blocks put together
    (Proof/Region0.lean, Region1.lean, Region2.lean, stated for whatever the buffers hold when the region is entered);
    the result array is read back through @main's segments to the launch memory in Proof/Chain.lean.
  * The reference reshapes `x` to 4096 × 16 × 256 and `wᵀ` to 16 × 256 × 4096, folds the axis of length sixteen from a
    zero, multiplies, writes the product over an array of zeros (a scatter with an empty index tensor whose window is the
    whole array: every entry is replaced, Proof/LibScatterRead.lean) and adds the bias (Proof/RefValue.lean).
  The two differ only in the ORDER of each sixteen-term sum (left to right from the first block, against a fold from
  zero): addition on the extended reals is associative with `0` neutral, the products and the outer sum are term for
  term the same, so the precondition (finite inputs) is never opened.
  `preserves` is `True`: the idealization rewrote no operation.
-/
import proofs.«156795_j4844723110442_1_alg».proof.Defs
import proofs.«156795_j4844723110442_1_alg».proof.Proof.Gen.Kernel
import proofs.«156795_j4844723110442_1_alg».proof.Proof.Gen.Kernel.Skeleton
import proofs.«156795_j4844723110442_1_alg».proof.Proof.Gen.Kernel.Launch
import proofs.«156795_j4844723110442_1_alg».proof.Proof.Gen.Kernel.Points
import proofs.«156795_j4844723110442_1_alg».proof.Proof.Gen.Kernel.Frame
import proofs.«156795_j4844723110442_1_alg».proof.Proof.Gen.KernelIdeal
import proofs.«156795_j4844723110442_1_alg».proof.Proof.Gen.KernelIdeal.Skeleton
import proofs.«156795_j4844723110442_1_alg».proof.Proof.Gen.KernelIdeal.Launch
import proofs.«156795_j4844723110442_1_alg».proof.Proof.Gen.KernelIdeal.Points
import proofs.«156795_j4844723110442_1_alg».proof.Proof.Gen.KernelIdeal.Frame
import proofs.«156795_j4844723110442_1_alg».proof.Proof.Gen.ReferenceIdeal
import proofs.«156795_j4844723110442_1_alg».proof.Proof.Gen.Pre_finite_inputs
import proofs.«156795_j4844723110442_1_alg».proof.Proof.Spec
import proofs.«156795_j4844723110442_1_alg».proof.Proof.RefRun
import proofs.«156795_j4844723110442_1_alg».proof.Proof.RefRead
import proofs.«156795_j4844723110442_1_alg».proof.Proof.RefValue
import proofs.«156795_j4844723110442_1_alg».proof.Proof.KernelRun
import proofs.«156795_j4844723110442_1_alg».proof.Proof.Chain
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing, so there is nothing to preserve. -/
theorem preserves : Cert.preserves_Kernel_KernelIdeal := trivial

/-- From memories that agree on the arguments both programs end with the result array at `Cert.Spec.G` of the
    arguments: the kernel's by its run and the fold through @main, the reference's by its run read stage by stage. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Chain.result_eq m ρ c), (h c).2⟩)
      (Cert.KernelIdeal.GenRun.run_main (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v10_eq, Cert.ReferenceIdeal.RefValue.result_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
